-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S64x4096 .f32) (main_arg1 : IVec S512x11008 32) (main_arg2 : IVec S32x1376 32) (main_arg3 : FVec F S32x11008 .f32) (main_arg4 : FVec F S11008 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S64x4096 : Shape := ⟨2, ![64, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S_ : Shape := ⟨0, ![]⟩
abbrev S512x11264 : Shape := ⟨2, ![512, 11264]⟩
abbrev S32x1408 : Shape := ⟨2, ![32, 1408]⟩
abbrev S32x11264 : Shape := ⟨2, ![32, 11264]⟩
abbrev S11264 : Shape := ⟨1, ![11264]⟩
abbrev S64x512x8 : Shape := ⟨3, ![64, 512, 8]⟩
abbrev S8x64x512 : Shape := ⟨3, ![8, 64, 512]⟩
abbrev S64x32x128 : Shape := ⟨3, ![64, 32, 128]⟩
abbrev S64x32 : Shape := ⟨2, ![64, 32]⟩
abbrev S64x11264 : Shape := ⟨2, ![64, 11264]⟩
abbrev S512x1024 : Shape := ⟨2, ![512, 1024]⟩
abbrev S32x128 : Shape := ⟨2, ![32, 128]⟩
abbrev S32x1024 : Shape := ⟨2, ![32, 1024]⟩
abbrev S1024 : Shape := ⟨1, ![1024]⟩
abbrev S64x1024 : Shape := ⟨2, ![64, 1024]⟩
abbrev S32x1x1024 : Shape := ⟨3, ![32, 1, 1024]⟩
abbrev S32x16x1024 : Shape := ⟨3, ![32, 16, 1024]⟩
abbrev S1x64x512 : Shape := ⟨3, ![1, 64, 512]⟩
abbrev S64x512 : Shape := ⟨2, ![64, 512]⟩
abbrev S1x1x8 : Shape := ⟨3, ![1, 1, 8]⟩
abbrev S32x128x1 : Shape := ⟨3, ![32, 128, 1]⟩
abbrev S32x128x8 : Shape := ⟨3, ![32, 128, 8]⟩
abbrev S1x1024 : Shape := ⟨2, ![1, 1024]⟩
abbrev S64x11008 : Shape := ⟨2, ![64, 11008]⟩

abbrev nBuf : Space → Nat
  | .hbm => 24
  | .vmem => 12
  | .smem => 0
  | _ => 0

abbrev bufTy : (tb : Table) → Fin (tcTables nBuf tb) → BufTy
  | .hbm, ⟨0, _⟩ => ⟨S64x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S_, .i32⟩
  | .hbm, ⟨6, _⟩ => ⟨S_, .i32⟩
  | .hbm, ⟨7, _⟩ => ⟨S512x11264, .i32⟩
  | .hbm, ⟨8, _⟩ => ⟨S_, .i32⟩
  | .hbm, ⟨9, _⟩ => ⟨S_, .i32⟩
  | .hbm, ⟨10, _⟩ => ⟨S32x1408, .i32⟩
  | .hbm, ⟨11, _⟩ => ⟨S_, .i32⟩
  | .hbm, ⟨12, _⟩ => ⟨S_, .f32⟩
  | .hbm, ⟨13, _⟩ => ⟨S32x11264, .f32⟩
  | .hbm, ⟨14, _⟩ => ⟨S_, .i32⟩
  | .hbm, ⟨15, _⟩ => ⟨S_, .f32⟩
  | .hbm, ⟨16, _⟩ => ⟨S11264, .f32⟩
  | .hbm, ⟨17, _⟩ => ⟨S64x512x8, .f32⟩
  | .hbm, ⟨18, _⟩ => ⟨S8x64x512, .f32⟩
  | .hbm, ⟨19, _⟩ => ⟨S64x32x128, .f32⟩
  | .hbm, ⟨20, _⟩ => ⟨S_, .f32⟩
  | .hbm, ⟨21, _⟩ => ⟨S64x32, .f32⟩
  | .hbm, ⟨22, _⟩ => ⟨S64x11264, .f32⟩
  | .hbm, ⟨23, _⟩ => ⟨S64x11008, .f32⟩
  | .local _ .vmem, ⟨0, _⟩ => ⟨S8x64x512, .f32⟩
  | .local _ .vmem, ⟨1, _⟩ => ⟨S64x32, .f32⟩
  | .local _ .vmem, ⟨2, _⟩ => ⟨S512x1024, .i32⟩
  | .local _ .vmem, ⟨3, _⟩ => ⟨S512x1024, .i32⟩
  | .local _ .vmem, ⟨4, _⟩ => ⟨S32x128, .i32⟩
  | .local _ .vmem, ⟨5, _⟩ => ⟨S32x128, .i32⟩
  | .local _ .vmem, ⟨6, _⟩ => ⟨S32x1024, .f32⟩
  | .local _ .vmem, ⟨7, _⟩ => ⟨S32x1024, .f32⟩
  | .local _ .vmem, ⟨8, _⟩ => ⟨S1024, .f32⟩
  | .local _ .vmem, ⟨9, _⟩ => ⟨S1024, .f32⟩
  | .local _ .vmem, ⟨10, _⟩ => ⟨S64x1024, .f32⟩
  | .local _ .vmem, ⟨11, _⟩ => ⟨S64x1024, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_c_2 : Ref sig .tc := ⟨.hbm, 14, rfl⟩
abbrev main_call3_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S512x11008_S512x11264_000_02560 : S512x11008.Pads (![0, 0] : Fin 2 → Nat) ![0, 256] ![0, 0] S512x11264
  h_S_ : 0 < S_.numel
  pads_S32x1376_S32x1408_000_0320 : S32x1376.Pads (![0, 0] : Fin 2 → Nat) ![0, 32] ![0, 0] S32x1408
  pads_S32x11008_S32x11264_000_02560 : S32x11008.Pads (![0, 0] : Fin 2 → Nat) ![0, 256] ![0, 0] S32x11264
  pads_S11008_S11264_02560 : S11008.Pads (![0] : Fin 1 → Nat) ![256] ![0] S11264
  shapeCasts_S64x4096_S64x512x8 : S64x4096.ShapeCasts S64x512x8
  transposes_S64x512x8_S8x64x512_2_0_1 : S64x512x8.Transposes [2, 0, 1] S8x64x512
  shapeCasts_S64x4096_S64x32x128 : S64x4096.ShapeCasts S64x32x128
  reducesTo_S64x32x128_S64x32_d2 : S64x32x128.ReducesTo [2] S64x32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  shapeCasts_S32x1024_S32x1x1024 : S32x1024.ShapeCasts S32x1x1024
  shapeCasts_S32x1x1024_S32x1x1024 : S32x1x1024.ShapeCasts S32x1x1024
  broadcasts_S32x1x1024_S32x16x1024 : S32x1x1024.Broadcasts S32x16x1024
  shapeCasts_S32x16x1024_S512x1024 : S32x16x1024.ShapeCasts S512x1024
  bitsLt_bf16_f32 : FTy.bits .bf16 < FTy.bits .f32
  inb_S8x64x512_S1x64x512_0_0_0 : ∀ a, (![0, 0, 0] : Fin 3 → Nat) a + S1x64x512.size a ≤ S8x64x512.size a
  h_S1x64x512 : 0 < S1x64x512.numel
  shapeCasts_S1x64x512_S64x512 : S1x64x512.ShapeCasts S64x512
  inb_S8x64x512_S1x64x512_1_0_0 : ∀ a, (![1, 0, 0] : Fin 3 → Nat) a + S1x64x512.size a ≤ S8x64x512.size a
  inb_S8x64x512_S1x64x512_2_0_0 : ∀ a, (![2, 0, 0] : Fin 3 → Nat) a + S1x64x512.size a ≤ S8x64x512.size a
  inb_S8x64x512_S1x64x512_3_0_0 : ∀ a, (![3, 0, 0] : Fin 3 → Nat) a + S1x64x512.size a ≤ S8x64x512.size a
  inb_S8x64x512_S1x64x512_4_0_0 : ∀ a, (![4, 0, 0] : Fin 3 → Nat) a + S1x64x512.size a ≤ S8x64x512.size a
  inb_S8x64x512_S1x64x512_5_0_0 : ∀ a, (![5, 0, 0] : Fin 3 → Nat) a + S1x64x512.size a ≤ S8x64x512.size a
  inb_S8x64x512_S1x64x512_6_0_0 : ∀ a, (![6, 0, 0] : Fin 3 → Nat) a + S1x64x512.size a ≤ S8x64x512.size a
  inb_S8x64x512_S1x64x512_7_0_0 : ∀ a, (![7, 0, 0] : Fin 3 → Nat) a + S1x64x512.size a ≤ S8x64x512.size a
  inb_S32x128_S32x128_0_0 : ∀ a, (![0, 0] : Fin 2 → Nat) a + S32x128.size a ≤ S32x128.size a
  h_S32x128 : 0 < S32x128.numel
  shapeCasts_S32x128_S32x128 : S32x128.ShapeCasts S32x128
  iota_S1x1x8_d2_w32 : S1x1x8.Iotas .tc 32 [2]
  shapeCasts_S32x128_S32x128x1 : S32x128.ShapeCasts S32x128x1
  broadcasts_S32x128x1_S32x128x8 : S32x128x1.Broadcasts S32x128x8
  broadcasts_S1x1x8_S32x128x8 : S1x1x8.Broadcasts S32x128x8
  shapeCasts_S32x128x8_S32x1024 : S32x128x8.ShapeCasts S32x1024
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  slices_S64x11264_S64x11008_0_0 : S64x11264.Slices ![0, 0] S64x11008
  dot_S64x512_S512x1024_S64x1024_1_0_0_1_n_n_wf : DotDims.WF S64x512 S512x1024 S64x1024 [1] [0] [0] [1] [] []
  dot_S64x32_S32x1024_S64x1024_1_0_0_1_n_n_wf : DotDims.WF S64x32 S32x1024 S64x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x64x512.size a ≤ S8x64x512.size a
  hwx0_0 : ∀ i : grid0.Coords, EltTy.bits .f32 = 32 ∨ (Rect.block (s := S8x64x512) S8x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x11264.size a
  hwx0_2 : ∀ i : grid0.Coords, EltTy.bits .i32 = 32 ∨ (Rect.block (s := S512x11264) S512x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x1408.size a
  hwx0_3 : ∀ i : grid0.Coords, EltTy.bits .i32 = 32 ∨ (Rect.block (s := S32x1408) S32x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x11264.size a
  hwx0_4 : ∀ i : grid0.Coords, EltTy.bits .f32 = 32 ∨ (Rect.block (s := S32x11264) S32x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S11264.size a
  hwx0_5 : ∀ i : grid0.Coords, EltTy.bits .f32 = 32 ∨ (Rect.block (s := S11264) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x11264.size a
  hwx0_6 : ∀ i : grid0.Coords, EltTy.bits .f32 = 32 ∨ (Rect.block (s := S64x11264) S64x1024.size (cc0_transform_6 i) (hinb0_6 i)).WholeWords (EltTy.packing .f32)

variable [Facts₀]

def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x32_S32x1024_S64x1024_1_0_0_1_n_n : DotDims S64x32 S32x1024 S64x1024 where
  lhsContracting := [1]
  rhsContracting := [0]
  lhsNonContracting := [0]
  rhsNonContracting := [1]
  lhsBatch := []
  rhsBatch := []
  wf := dot_S64x32_S32x1024_S64x1024_1_0_0_1_n_n_wf

abbrev win0_0 : Pipeline.Window sig grid0 :=
  Pipeline.Window.ofSpec (Memref.whole main_v5) S8x64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S32x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S64x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x4096 : Shape := ⟨2, ![64, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S32x128x11008 : Shape := ⟨3, ![32, 128, 11008]⟩
abbrev S32x1376x1 : Shape := ⟨3, ![32, 1376, 1]⟩
abbrev S1x1x8 : Shape := ⟨3, ![1, 1, 8]⟩
abbrev S32x1376x8 : Shape := ⟨3, ![32, 1376, 8]⟩
abbrev S32x1x11008 : Shape := ⟨3, ![32, 1, 11008]⟩
abbrev S4096x11008 : Shape := ⟨2, ![4096, 11008]⟩
abbrev S64x11008 : Shape := ⟨2, ![64, 11008]⟩
abbrev S1x11008 : Shape := ⟨2, ![1, 11008]⟩

abbrev nBuf : Space → Nat
  | .hbm => 41
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S512x1x11008, .i32⟩
  | .hbm, ⟨10, _⟩ => ⟨S1x8x1, .i32⟩
  | .hbm, ⟨11, _⟩ => ⟨S512x8x11008, .i32⟩
  | .hbm, ⟨12, _⟩ => ⟨S512x8x11008, .i32⟩
  | .hbm, ⟨13, _⟩ => ⟨S512x8x11008, .i32⟩
  | .hbm, ⟨14, _⟩ => ⟨S_, .i32⟩
  | .hbm, ⟨15, _⟩ => ⟨S512x8x11008, .i32⟩
  | .hbm, ⟨16, _⟩ => ⟨S512x8x11008, .i32⟩
  | .hbm, ⟨17, _⟩ => ⟨S32x128x11008, .i32⟩
  | .hbm, ⟨18, _⟩ => ⟨S32x1376x1, .i32⟩
  | .hbm, ⟨19, _⟩ => ⟨S1x1x8, .i32⟩
  | .hbm, ⟨20, _⟩ => ⟨S32x1376x8, .i32⟩
  | .hbm, ⟨21, _⟩ => ⟨S32x1376x8, .i32⟩
  | .hbm, ⟨22, _⟩ => ⟨S32x1376x8, .i32⟩
  | .hbm, ⟨23, _⟩ => ⟨S_, .i32⟩
  | .hbm, ⟨24, _⟩ => ⟨S32x1376x8, .i32⟩
  | .hbm, ⟨25, _⟩ => ⟨S32x1376x8, .i32⟩
  | .hbm, ⟨26, _⟩ => ⟨S_, .i32⟩
  | .hbm, ⟨27, _⟩ => ⟨S32x1376x8, .i32⟩
  | .hbm, ⟨28, _⟩ => ⟨S32x1376x8, .i32⟩
  | .hbm, ⟨29, _⟩ => ⟨S32x1x11008, .i32⟩
  | .hbm, ⟨30, _⟩ => ⟨S32x1x11008, .f32⟩
  | .hbm, ⟨31, _⟩ => ⟨S32x128x11008, .i32⟩
  | .hbm, ⟨32, _⟩ => ⟨S32x128x11008, .i32⟩
  | .hbm, ⟨33, _⟩ => ⟨S32x128x11008, .f32⟩
  | .hbm, ⟨34, _⟩ => ⟨S32x128x11008, .f32⟩
  | .hbm, ⟨35, _⟩ => ⟨S32x128x11008, .f32⟩
  | .hbm, ⟨36, _⟩ => ⟨S4096x11008, .f32⟩
  | .hbm, ⟨37, _⟩ => ⟨S64x11008, .f32⟩
  | .hbm, ⟨38, _⟩ => ⟨S1x11008, .f32⟩
  | .hbm, ⟨39, _⟩ => ⟨S64x11008, .f32⟩
  | .hbm, ⟨40, _⟩ => ⟨S64x11008, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S32x128x11008 : S512x8x11008.ShapeCasts S32x128x11008
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x1x11008 : S32x1376x8.ShapeCasts S32x1x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S64x11008_0_1 : S1x11008.BroadcastsInDim S64x11008 (![0, 1] : Fin 2 → Fin S64x11008.rank)
  dot_S64x4096_S4096x11008_S64x11008_1_0_0_1_n_n_wf : DotDims.WF S64x4096 S4096x11008 S64x11008 [1] [0] [0] [1] [] []

variable [Facts₀]

def dot_S64x4096_S4096x11008_S64x11008_1_0_0_1_n_n : DotDims S64x4096 S4096x11008 S64x11008 where
  lhsContracting := [1]
  rhsContracting := [0]
  lhsNonContracting := [0]
  rhsNonContracting := [1]
  lhsBatch := []
  rhsBatch := []
  wf := dot_S64x4096_S4096x11008_S64x11008_1_0_0_1_n_n_wf

class Facts : Prop extends Facts₀ where

variable [Facts]
-- ==== Proof.Spec.lean ====
/-
  A group-quantized linear layer, y = x · W + b, with W stored as 4-bit nibbles: eight to a 32-bit word down the
  rows (word i of column n holds rows 8i … 8i+7, row 8i+j in bits 4j … 4j+3), one scale and one zero point per
  group of 128 rows and per column, the zero points packed eight to a word along the columns and stored less one:
      W[k, n] = scale[k/128, n] · (nibble[k, n] − (zero[k/128, n] + 1)).
  Two ways of writing the product are stated here, index by index over the extended reals:
  `ref` contracts x against the dequantized W; `ker` never forms W — it adds the eight nibble planes' products
  (plane j pairs column 8i+j of x with nibble j of word i, scaled) and takes off one small product of the group sums
  of x with scale · (zero + 1). They agree wherever x and the scales are real numbers (Algebra.lean).
-/
import Idealize.ShloMosaic.Lib.ValueIdx
import Idealize.ShloMosaic.PureOps.Ideal

noncomputable section

namespace Cert.GroupQuant

open Idealize.ShloMosaic Idealize.ShloMosaic.ValueIdx

/-- Nibble `j` of a packed word, as a word: `(w >>ₛ 4j) & 15`. -/
def nib (w : BitVec 32) (j : Fin 8) : BitVec 32 := (w.sshiftRight (4 * j.val)) &&& 15#32

/-- The zero point held in nibble `j` of a packed word: the stored nibble plus one. -/
def zp (w : BitVec 32) (j : Fin 8) : BitVec 32 := nib w j + 1#32

/-- A word read as a signed integer, as an extended real. -/
def ofWord (v : BitVec 32) : EReal := ((v.toInt : ℝ) : EReal)

/-- Row `k` of W lies in group `k / 128`, -/
def kGroup (k : Fin 4096) : Fin 32 := ⟨k.val / 128, by have := k.isLt; omega⟩
/-- in packed word `k / 8` of its column, -/
def kWord (k : Fin 4096) : Fin 512 := ⟨k.val / 8, by have := k.isLt; omega⟩
/-- at nibble `k % 8` of that word. -/
def kNib (k : Fin 4096) : Fin 8 := ⟨k.val % 8, by omega⟩
/-- Packed word `i` of a column lies in group `i / 16`. -/
def wGroup (i : Fin 512) : Fin 32 := ⟨i.val / 16, by have := i.isLt; omega⟩

/-- Column `n`'s zero point sits at nibble `n % 8` -/
def nNib {N : ℕ} (n : Fin N) : Fin 8 := ⟨n.val % 8, by omega⟩
/-- of packed word `n / 8` of its row, the column count `N` being eight times the count `N8` of such words. -/
def nWord {N N8 : ℕ} (hN : N = 8 * N8) (n : Fin N) : Fin N8 := ⟨n.val / 8, by have := n.isLt; omega⟩

section Columns

-- the column count `N` is eight times the count `N8` of packed zero-point words in a row
variable {N N8 : ℕ} (hN : N = 8 * N8)

variable (qw : IVec ⟨2, ![512, N]⟩ 32) (qz : IVec ⟨2, ![32, N8]⟩ 32) (sc : FVec Ideal ⟨2, ![32, N]⟩ .f32)
  (b : FVec Ideal ⟨1, ![N]⟩ .f32)

/-- The dequantized weight at (k, n): scale · (nibble − zero point), the difference taken on words. -/
def deq (k : Fin 4096) (n : Fin N) : EReal :=
  sc (ix2 (kGroup k) n) * ofWord (nib (qw (ix2 (kWord k) n)) (kNib k) - zp (qz (ix2 (kGroup k) (nWord hN n))) (nNib n))

/-- x · W + b with W dequantized whole. -/
def ref (x : FVec Ideal ⟨2, ![64, 4096]⟩ .f32) : FVec Ideal ⟨2, ![64, N]⟩ .f32 := fun i =>
  (∑ k : Fin 4096, x (ix2 (i 0) k) * deq hN qw qz sc k (i 1)) + b (ix1 (i 1))

variable (xs : FVec Ideal ⟨3, ![8, 64, 512]⟩ .f32) (xg : FVec Ideal ⟨2, ![64, 32]⟩ .f32)

/-- Nibble plane `j`'s product at (p, n): the columns 8i+j of x (held as `xs j`) against nibble `j` of word `i`, scaled. -/
def plane (j : Fin 8) (p : Fin 64) (n : Fin N) : EReal :=
  ∑ i : Fin 512, xs (ix3 j p i) * (ofWord (nib (qw (ix2 i n)) j) * sc (ix2 (wGroup i) n))

/-- The zero-point correction at (p, n): the group sums of x (held as `xg`) against scale · zero point. -/
def zterm (p : Fin 64) (n : Fin N) : EReal :=
  ∑ g : Fin 32, xg (ix2 p g) * (sc (ix2 g n) * ofWord (zp (qz (ix2 g (nWord hN n))) (nNib n)))

/-- The eight planes added in order onto zero, less the correction, plus the bias. -/
def ker : FVec Ideal ⟨2, ![64, N]⟩ .f32 := fun i =>
  ((0 + plane qw sc xs 0 (i 0) (i 1) + plane qw sc xs 1 (i 0) (i 1) + plane qw sc xs 2 (i 0) (i 1)
      + plane qw sc xs 3 (i 0) (i 1) + plane qw sc xs 4 (i 0) (i 1) + plane qw sc xs 5 (i 0) (i 1)
      + plane qw sc xs 6 (i 0) (i 1) + plane qw sc xs 7 (i 0) (i 1))
    - zterm hN qz sc xg (i 0) (i 1)) + b (ix1 (i 1))

end Columns

end Cert.GroupQuant

end
-- ==== Proof.RefValue.lean ====
/-
  The reference, read one operation at a time, is the dequantize-then-contract form `ref` (Spec.lean): its
  weight array unpacks the nibbles along a new axis of length 8 and regroups the 512·8 rows as 32 groups of 128,
  so row k = 128g + r of W comes from word k/8, nibble k%8; the zero points unpack along the columns, column
  n from word n/8, nibble n%8; and the product's contraction runs over the 4096 rows.
-/
import proofs.«149651_j22058952032259_1_alg».proof.Proof.Gen.ReferenceIdeal.Read
import proofs.«149651_j22058952032259_1_alg».proof.Proof.Spec

noncomputable section

namespace Cert.ReferenceIdeal.RefValue

open Cert.ReferenceIdeal Idealize.ShloMosaic Idealize.ShloMosaic.ValueIdx

/-- Shifting a word right by four times `j` places, `j` below 8, and keeping the low four bits reads nibble `j`. -/
private theorem shr_and_eq_nib (w : BitVec 32) (j : Fin 8) :
    IntOp.andi (IntOp.shrsi .host w (IntOp.muli (BitVec.ofNat 32 j.val) 4#32)) 15#32 = Cert.GroupQuant.nib w j := by
  fin_cases j <;> rfl

/-- Row `k`, column `n` of the weight array reads the scales at group `k / 128`, column `n`. -/
private theorem idx_scale (k : Fin 4096) (n : Fin 11008) :
    Read.idx_main_v21 (Read.idx_main_v25 (Read.idx_main_v27 (ix2 k n))) = ix2 (Cert.GroupQuant.kGroup k) n := by
  have hk := k.isLt
  have hn := n.isLt
  funext a
  match a with
  | ⟨0, _⟩ =>
    refine Fin.ext ?_
    show (k.val * 11008 + n.val) / 1409024 = k.val / 128
    omega
  | ⟨1, _⟩ =>
    refine Fin.ext ?_
    show (k.val * 11008 + n.val) % 11008 = n.val
    omega

/-- Row `k`, column `n` of the weight array reads the packed weights at word `k / 8`, column `n`: row `k` is
    row `k % 128` of group `k / 128`, and row `r` of group `g` is nibble `(128 g + r) % 8` of word `(128 g + r) / 8`. -/
private theorem idx_word (k : Fin 4096) (n : Fin 11008) :
    Read.idx_main_v3 (Read.idx_main_v5 (Read.idx_main_v10 (Read.idx_main_v27 (ix2 k n)))) = ix2 (Cert.GroupQuant.kWord k) n := by
  have hk := k.isLt
  have hn := n.isLt
  funext a
  match a with
  | ⟨0, _⟩ =>
    refine Fin.ext ?_
    show (((k.val * 11008 + n.val) / 1409024 * 128 + (k.val * 11008 + n.val) / 11008 % 128) * 11008
        + (k.val * 11008 + n.val) % 11008) / 88064 = k.val / 8
    omega
  | ⟨1, _⟩ =>
    refine Fin.ext ?_
    show (((k.val * 11008 + n.val) / 1409024 * 128 + (k.val * 11008 + n.val) / 11008 % 128) * 11008
        + (k.val * 11008 + n.val) % 11008) % 11008 = n.val
    omega

/-- … and the shift amount there is four times `k % 8`. -/
private theorem idx_nib (k : Fin 4096) (n : Fin 11008) :
    (Read.idx_main_v4 (Read.idx_main_v6 (Read.idx_main_v10 (Read.idx_main_v27 (ix2 k n)))) 0).val
      = (Cert.GroupQuant.kNib k).val := by
  have hk := k.isLt
  have hn := n.isLt
  show (((k.val * 11008 + n.val) / 1409024 * 128 + (k.val * 11008 + n.val) / 11008 % 128) * 11008
      + (k.val * 11008 + n.val) % 11008) / 11008 % 8 = k.val % 8
  omega

/-- Row `k`, column `n` of the weight array reads the packed zero points at group `k / 128`, word `n / 8`. -/
private theorem idx_zword (k : Fin 4096) (n : Fin 11008) :
    Read.idx_main_v11 (Read.idx_main_v13 (Read.idx_main_v20 (Read.idx_main_v22 (Read.idx_main_v27 (ix2 k n)))))
      = ix2 (Cert.GroupQuant.kGroup k) (Cert.GroupQuant.nWord (N := 11008) (N8 := 1376) rfl n) := by
  have hk := k.isLt
  have hn := n.isLt
  funext a
  match a with
  | ⟨0, _⟩ =>
    refine Fin.ext ?_
    show (((k.val * 11008 + n.val) / 1409024 * 1 + 0) * 11008 + (k.val * 11008 + n.val) % 11008) / 11008 = k.val / 128
    omega
  | ⟨1, _⟩ =>
    refine Fin.ext ?_
    show (((k.val * 11008 + n.val) / 1409024 * 1 + 0) * 11008 + (k.val * 11008 + n.val) % 11008) / 8 % 1376 = n.val / 8
    omega

/-- … and the shift amount there is four times `n % 8`. -/
private theorem idx_znib (k : Fin 4096) (n : Fin 11008) :
    (Read.idx_main_v12 (Read.idx_main_v14 (Read.idx_main_v20 (Read.idx_main_v22 (Read.idx_main_v27 (ix2 k n))))) 0).val
      = (Cert.GroupQuant.nNib n).val := by
  have hk := k.isLt
  have hn := n.isLt
  show (((k.val * 11008 + n.val) / 1409024 * 1 + 0) * 11008 + (k.val * 11008 + n.val) % 11008) % 8 = n.val % 8
  omega

/-- The weight array at row `k`, column `n` is the dequantized weight of the specification. -/
private theorem weight_at (x1 : (⟨S512x11008, .i32⟩ : BufTy).Contents (Elt Ideal))
    (x2 : (⟨S32x1376, .i32⟩ : BufTy).Contents (Elt Ideal)) (x3 : (⟨S32x11008, .f32⟩ : BufTy).Contents (Elt Ideal))
    (k : Fin 4096) (n : Fin 11008) :
    Read.val_main_v27 (F := Ideal) x1 x2 x3 (ix2 k n)
      = Cert.GroupQuant.deq (N := 11008) (N8 := 1376) rfl x1 x2 x3 k n := by
  rw [Read.val_main_v27_apply, Read.val_main_v26_apply, Read.val_main_v25_apply, Read.val_main_v21_apply,
    Read.val_main_v24_apply, Read.val_main_v23_apply,
    Read.val_main_v10_apply, Read.val_main_v9_apply, Read.val_main_v7_apply, Read.val_main_v5_apply,
    Read.val_main_v3_apply, Read.val_main_v6_apply, Read.val_main_v4_apply, Read.val_main_v2_apply,
    Read.val_main_v0_apply, Read.val_main_v1_apply, Read.val_main_c_apply, Read.val_main_v8_apply,
    Read.val_main_c_0_apply,
    Read.val_main_v22_apply, Read.val_main_v20_apply, Read.val_main_v19_apply, Read.val_main_v17_apply,
    Read.val_main_v15_apply, Read.val_main_v13_apply, Read.val_main_v11_apply, Read.val_main_v14_apply,
    Read.val_main_v12_apply, Read.val_main_v2_apply, Read.val_main_v0_apply, Read.val_main_v1_apply,
    Read.val_main_c_apply, Read.val_main_v16_apply, Read.val_main_c_1_apply, Read.val_main_v18_apply,
    Read.val_main_c_2_apply]
  rw [idx_scale, idx_word, idx_nib, idx_zword, idx_znib, shr_and_eq_nib, shr_and_eq_nib]
  rfl

theorem ref_is (x0 : (⟨S64x4096, .f32⟩ : BufTy).Contents (Elt Ideal)) (x1 : (⟨S512x11008, .i32⟩ : BufTy).Contents (Elt Ideal))
    (x2 : (⟨S32x1376, .i32⟩ : BufTy).Contents (Elt Ideal)) (x3 : (⟨S32x11008, .f32⟩ : BufTy).Contents (Elt Ideal))
    (x4 : (⟨S11008, .f32⟩ : BufTy).Contents (Elt Ideal)) :
    Cert.ReferenceIdeal.Read.val_main_v31 (F := Ideal) x0 x1 x2 x3 x4
      = Cert.GroupQuant.ref (N := 11008) (N8 := 1376) rfl x1 x2 x3 x4 x0 := by
  funext i
  obtain ⟨p, n, rfl⟩ : ∃ (p : Fin 64) (n : Fin 11008), i = ix2 p n := ⟨i 0, i 1, eq_ix2 i⟩
  rw [Read.val_main_v31_apply, Read.val_main_v30_apply, Read.val_main_v29_apply, Read.val_main_v28_apply]
  -- the product's two operands at contraction index `k` are x at (p, k) and the weight array at (k, n);
  -- the bias is read at column n
  have hl : ∀ k : Fin 4096, Read.lidx_main_v28 (ix2 p n) k = ix2 p k := fun k => by
    funext a
    match a with
    | ⟨0, _⟩ => rfl
    | ⟨1, _⟩ => rfl
  have hr : ∀ k : Fin 4096, Read.ridx_main_v28 (ix2 p n) k = ix2 k n := fun k => by
    funext a
    match a with
    | ⟨0, _⟩ => rfl
    | ⟨1, _⟩ => rfl
  have hb : Read.idx_main_v29 (Read.idx_main_v30 (ix2 p n)) = ix1 n := by
    funext a
    match a with
    | ⟨0, _⟩ => rfl
  rw [hb]
  show (∑ k : Fin 4096, x0 (Read.lidx_main_v28 (ix2 p n) k) * Read.val_main_v27 (F := Ideal) x1 x2 x3 (Read.ridx_main_v28 (ix2 p n) k))
      + x4 (ix1 n)
    = (∑ k : Fin 4096, x0 (ix2 p k) * Cert.GroupQuant.deq (N := 11008) (N8 := 1376) rfl x1 x2 x3 k n) + x4 (ix1 n)
  congr 1
  refine Finset.sum_congr rfl fun k _ => ?_
  rw [hl, hr, weight_at]

end Cert.ReferenceIdeal.RefValue

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.Tile.lean ====
/-
  What the kernel body leaves in its output tile, entry by entry: from one tile of packed weights [512, 1024], of
  packed zero points [32, 128], of scales [32, 1024] and of bias [1024], and the whole of the two views of x, the
  tile's entry (p, q) is the kernel form `ker` (Spec.lean) over those tiles — eight products of a nibble plane,
  each into a zero accumulator and added in order onto zero, less the zero-point product, plus the bias row.
-/
import proofs.«149651_j22058952032259_1_alg».proof.Proof.Gen.KernelIdeal.Frame
import proofs.«149651_j22058952032259_1_alg».proof.Proof.Spec
import proofs.«149651_j22058952032259_1_alg».proof.Proof.LibPlainProduct
import Idealize.ShloMosaic.Lib.Pipeline.Value

noncomputable section

namespace Cert.KernelIdeal.Tile

open Cert.KernelIdeal Cert.KernelIdeal.Gen Idealize.ShloMosaic Idealize.ShloMosaic.ValueIdx

/-- The zero offset at rank one, and -/
private theorem hz1 : (![0] : Fin 1 → Nat) = fun _ => 0 := funext fun a => by fin_cases a <;> rfl
/-- at rank two, however the zeros are written. -/
private theorem hz2 : (![0, 0] : Fin 2 → Nat) = fun _ => 0 := funext fun a => by fin_cases a <;> rfl

/-- The two products' dimension records are those of a plain [M, K] by [K, N] product. -/
private theorem dotA_eq : dot_S64x512_S512x1024_S64x1024_1_0_0_1_n_n = DotDims.plain 64 512 1024 := rfl
private theorem dotB_eq : dot_S64x32_S32x1024_S64x1024_1_0_0_1_n_n = DotDims.plain 64 32 1024 := rfl

/-- The scales spread down the rows: row i of the [512, 1024] array is row i / 16 of the [32, 1024] one
    (row i sits at position i % 16 inside block i / 16 of the sixteen-fold repeat). -/
private theorem pay4_apply (sc : Vec Ideal S32x1024 .f32) (i : Fin 512) (q : Fin 1024) :
    k0_pay4 (F := Ideal) sc (ix2 i q) = sc (ix2 (GroupQuant.wGroup i) q) := by
  have hi := i.isLt
  have hq := q.isLt
  unfold k0_pay4 k0_pay3
  refine (shapeCast_apply _ _ (ix2 i q) (ix3 (GroupQuant.wGroup i) (⟨i.val % 16, Nat.mod_lt _ (by decide)⟩ : Fin 16) q) ?_).trans ?_
  · rw [Shape.rowMajor_val_three, Shape.rowMajor_val_two]
    show ((i.val / 16) * 16 + i.val % 16) * 1024 + q.val = i.val * 1024 + q.val
    omega
  refine (broadcastTo_apply _ _ _ (ix3 (GroupQuant.wGroup i) (0 : Fin 1) q) ?_).trans ?_
  · intro a
    match a with
    | ⟨0, _⟩ => rfl
    | ⟨1, _⟩ => rfl
    | ⟨2, _⟩ => rfl
  rw [shapeCast_self]
  refine (shapeCast_apply _ _ _ (ix2 (GroupQuant.wGroup i) q) ?_).trans ?_
  · rw [Shape.rowMajor_val_three, Shape.rowMajor_val_two]
    show (i.val / 16) * 1024 + q.val = ((i.val / 16) * 1 + 0) * 1024 + q.val
    omega
  rw [shapeCast_self]

/-- A signed shift right by a word holding 4j, j below 8, is the shift by 4j. -/
private theorem shrsi_nib (w c : BitVec 32) (j : Fin 8) (hc : c.toNat = 4 * j.val) :
    IntOp.shrsi .vector w c = w.sshiftRight (4 * j.val) := by
  have hlt : c.toNat < 32 := by have := j.isLt; omega
  unfold IntOp.shrsi
  rw [if_pos hlt]
  show w.sshiftRight c.toNat = _
  rw [hc]

/-- One nibble plane's product into a zero accumulator, at (p, q): the plane of x against nibble j of the packed
    words, each nibble read as a number and scaled. -/
private theorem contrib_apply (xb : Vec Ideal S1x64x512 .f32) (v1 : IVec S512x1024 32) (v7 : FVec Ideal S512x1024 .f32)
    (c : BitVec 32) (j : Fin 8) (hc : c.toNat = 4 * j.val) (p : Fin 64) (q : Fin 1024) :
    matmul (F := Ideal) dot_S64x512_S512x1024_S64x1024_1_0_0_1_n_n none
        (truncf .bf16 (shapeCast S64x512 xb shapeCasts_S1x64x512_S64x512) bitsLt_bf16_f32)
        (truncf .bf16 (mulf (sitofp .f32 (andi (shrsi v1 (broadcast S512x1024 c)) (broadcast S512x1024 15#32))) v7) bitsLt_bf16_f32)
        (constant S64x1024 .f32 0x00000000#32) (ix2 p q)
      = ∑ i : Fin 512, xb (ix3 (0 : Fin 1) p i) * (GroupQuant.ofWord (GroupQuant.nib (v1 (ix2 i q)) j) * v7 (ix2 i q)) := by
  rw [dotA_eq]
  refine (Cert.PlainProduct.matmul_zero_apply none _ _ p q).trans ?_
  refine Finset.sum_congr rfl fun i _ => ?_
  congr 1
  · show shapeCast S64x512 xb shapeCasts_S1x64x512_S64x512 (ix2 p i) = _
    refine shapeCast_apply _ _ _ _ ?_
    rw [Shape.rowMajor_val_three, Shape.rowMajor_val_two]
    show (0 * 64 + p.val) * 512 + i.val = p.val * 512 + i.val
    omega
  · show ((((IntOp.andi (IntOp.shrsi .vector (v1 (ix2 i q)) c) 15#32).toInt : ℝ) : EReal)) * v7 (ix2 i q) = _
    rw [shrsi_nib _ c j hc]
    rfl

/-- The block read from plane j of the [8, 64, 512] view of x, at (0, p, i), is x's entry (j, p, i). -/
private theorem ld_plane (x0 : Vec Ideal S8x64x512 .f32) (off : Fin 3 → Nat)
    (inb : ∀ a, off a + S1x64x512.size a ≤ S8x64x512.size a) (j : Fin 8)
    (h0 : off 0 = j.val) (h1 : off 1 = 0) (h2 : off 2 = 0) (p : Fin 64) (i : Fin 512) :
    View.ld x0 (Rect.unit (s := S8x64x512) off S1x64x512.size inb) (ix3 (0 : Fin 1) p i) = x0 (ix3 j p i) := by
  show x0 ((Rect.unit (s := S8x64x512) off S1x64x512.size inb).idx (ix3 (0 : Fin 1) p i)) = _
  congr 1
  funext a
  apply Fin.ext
  match a with
  | ⟨0, _⟩ => show off 0 + 1 * 0 = j.val; omega
  | ⟨1, _⟩ => show off 1 + 1 * p.val = p.val; omega
  | ⟨2, _⟩ => show off 2 + 1 * i.val = i.val; omega

/-- A cast of the packed words to their own shape changes nothing. -/
private theorem pay2_eq (x2 : Vec Ideal S512x1024 .i32) : k0_pay2 (F := Ideal) x2 = x2 := shapeCast_self _ _

/-- Nor does the cast of the scales to their own shape. -/
private theorem pay3_eq (x4 : Vec Ideal S32x1024 .f32) : k0_pay3 (F := Ideal) x4 = x4 := shapeCast_self _ _

/-- The product of plane j as the kernel body forms it, from the tile's packed words and scales and the block of x
    loaded at offset (j, 0, 0), is the specification's plane j. -/
private theorem plane_apply (x0 : Vec Ideal S8x64x512 .f32) (x2 : Vec Ideal S512x1024 .i32) (x4 : Vec Ideal S32x1024 .f32)
    (off : Fin 3 → Nat) (inb : ∀ a, off a + S1x64x512.size a ≤ S8x64x512.size a) (c : BitVec 32) (j : Fin 8)
    (hc : c.toNat = 4 * j.val) (h0 : off 0 = j.val) (h1 : off 1 = 0) (h2 : off 2 = 0) (p : Fin 64) (q : Fin 1024) :
    matmul (F := Ideal) dot_S64x512_S512x1024_S64x1024_1_0_0_1_n_n none
        (truncf .bf16 (shapeCast S64x512 (View.ld x0 (Rect.unit (s := S8x64x512) off S1x64x512.size inb)) shapeCasts_S1x64x512_S64x512) bitsLt_bf16_f32)
        (truncf .bf16 (mulf (sitofp .f32 (andi (shrsi (k0_pay2 x2) (broadcast S512x1024 c)) (broadcast S512x1024 15#32))) (k0_pay4 x4)) bitsLt_bf16_f32)
        (constant S64x1024 .f32 0x00000000#32) (ix2 p q)
      = GroupQuant.plane (N := 1024) x2 x4 x0 j p q := by
  rw [contrib_apply _ _ _ c j hc, pay2_eq]
  unfold GroupQuant.plane
  refine Finset.sum_congr rfl fun i _ => ?_
  rw [ld_plane x0 off inb j h0 h1 h2, pay4_apply]

/-- The shift amounts of the zero-point unpacking: the word b · 4, b below 8, is 4b. -/
private theorem shift_toNat (b : Fin 8) : (BitVec.ofNat 32 b.val * 4#32).toNat = 4 * b.val := by
  fin_cases b <;> rfl

/-- The packed zero points repeated eight times along a new last axis: entry (g, a, b) is word (g, a). -/
private theorem zwords_apply (qz : Vec Ideal S32x128 .i32) (g : Fin 32) (a : Fin 128) (b : Fin 8) :
    broadcastTo S32x128x8 (shapeCast S32x128x1 (shapeCast S32x128 qz shapeCasts_S32x128_S32x128) shapeCasts_S32x128_S32x128x1)
        broadcasts_S32x128x1_S32x128x8 (ix3 g a b) = qz (ix2 g a) := by
  refine (broadcastTo_apply _ _ _ (ix3 g a (0 : Fin 1)) ?_).trans ?_
  · intro c
    match c with
    | ⟨0, _⟩ => rfl
    | ⟨1, _⟩ => rfl
    | ⟨2, _⟩ => rfl
  refine (shapeCast_apply _ _ _ (ix2 g a) ?_).trans ?_
  · rw [Shape.rowMajor_val_three, Shape.rowMajor_val_two]
    show g.val * 128 + a.val = (g.val * 128 + a.val) * 1 + 0
    omega
  rw [shapeCast_self]

/-- The shift amounts spread over the [32, 128, 8] array: entry (g, a, b) is the word b · 4. -/
private theorem zshifts_apply (g : Fin 32) (a : Fin 128) (b : Fin 8) :
    broadcastTo S32x128x8 (muli (iota .tc S1x1x8 32 [2] iota_S1x1x8_d2_w32) (broadcast S1x1x8 4#32))
        broadcasts_S1x1x8_S32x128x8 (ix3 g a b) = BitVec.ofNat 32 b.val * 4#32 := by
  refine (broadcastTo_apply _ _ _ (ix3 (0 : Fin 1) (0 : Fin 1) b) ?_).trans ?_
  · intro c
    match c with
    | ⟨0, _⟩ => rfl
    | ⟨1, _⟩ => rfl
    | ⟨2, _⟩ => rfl
  show IntOp.muli (iota .tc S1x1x8 32 [2] iota_S1x1x8_d2_w32 (ix3 (0 : Fin 1) (0 : Fin 1) b)) 4#32 = _
  rw [iota_single_apply]
  rfl

/-- Scale times zero point as the kernel body forms it: at (g, q) the scale there times the zero point held in nibble
    q % 8 of packed word q / 8 of row g (column q = 8 · (q / 8) + q % 8 of the [32, 128, 8] array flattened). -/
private theorem pay11_apply (sc : FVec Ideal S32x1024 .f32) (qz : Vec Ideal S32x128 .i32) (g : Fin 32) (q : Fin 1024) :
    k0_pay11 (F := Ideal) sc qz (ix2 g q)
      = sc (ix2 g q) * GroupQuant.ofWord (GroupQuant.zp (qz (ix2 g (GroupQuant.nWord (N := 1024) (N8 := 128) rfl q))) (GroupQuant.nNib q)) := by
  have hq := q.isLt
  unfold k0_pay11
  refine congrArg (fun v : BitVec 32 => sc (ix2 g q) * (((v.toInt : ℝ) : EReal))) ?_
  refine (shapeCast_apply _ _ _ (ix3 g (GroupQuant.nWord (N := 1024) (N8 := 128) rfl q) (GroupQuant.nNib q)) ?_).trans ?_
  · rw [Shape.rowMajor_val_three, Shape.rowMajor_val_two]
    show (g.val * 128 + q.val / 8) * 8 + q.val % 8 = g.val * 1024 + q.val
    omega
  show IntOp.addi (IntOp.andi (IntOp.shrsi .vector
      (broadcastTo S32x128x8 (shapeCast S32x128x1 (shapeCast S32x128 qz shapeCasts_S32x128_S32x128) shapeCasts_S32x128_S32x128x1)
        broadcasts_S32x128x1_S32x128x8 (ix3 g (GroupQuant.nWord (N := 1024) (N8 := 128) rfl q) (GroupQuant.nNib q)))
      (broadcastTo S32x128x8 (muli (iota .tc S1x1x8 32 [2] iota_S1x1x8_d2_w32) (broadcast S1x1x8 4#32))
        broadcasts_S1x1x8_S32x128x8 (ix3 g (GroupQuant.nWord (N := 1024) (N8 := 128) rfl q) (GroupQuant.nNib q)))) 15#32) 1#32 = _
  rw [zwords_apply, zshifts_apply, shrsi_nib _ _ (GroupQuant.nNib q) (shift_toNat _)]
  rfl

/-- The zero-point product into a zero accumulator, at (p, q): the specification's correction term. -/
private theorem zterm_apply (x1 : Vec Ideal S64x32 .f32) (x3 : Vec Ideal S32x128 .i32) (x4 : Vec Ideal S32x1024 .f32)
    (p : Fin 64) (q : Fin 1024) :
    matmul (F := Ideal) dot_S64x32_S32x1024_S64x1024_1_0_0_1_n_n none
        (truncf .bf16 (shapeCast S64x32 x1 shapeCasts_S64x32_S64x32) bitsLt_bf16_f32)
        (truncf .bf16 (k0_pay11 (k0_pay3 x4) x3) bitsLt_bf16_f32) (constant S64x1024 .f32 0x00000000#32) (ix2 p q)
      = GroupQuant.zterm (N := 1024) (N8 := 128) rfl x3 x4 x1 p q := by
  rw [dotB_eq]
  refine (Cert.PlainProduct.matmul_zero_apply none _ _ p q).trans ?_
  unfold GroupQuant.zterm
  refine Finset.sum_congr rfl fun g _ => ?_
  show shapeCast S64x32 x1 shapeCasts_S64x32_S64x32 (ix2 p g) * k0_pay11 (k0_pay3 x4) x3 (ix2 g q) = _
  rw [shapeCast_self, pay3_eq, pay11_apply]

/-- The bias row spread down the 64 rows: entry (p, q) is bias q. -/
private theorem bias_apply (x5 : Vec Ideal S1024 .f32) (p : Fin 64) (q : Fin 1024) :
    broadcastTo S64x1024 (shapeCast S1x1024 (shapeCast S1024 x5 shapeCasts_S1024_S1024) shapeCasts_S1024_S1x1024)
        broadcasts_S1x1024_S64x1024 (ix2 p q) = x5 (ix1 q) := by
  refine (broadcastTo_apply _ _ _ (ix2 (0 : Fin 1) q) ?_).trans ?_
  · intro c
    match c with
    | ⟨0, _⟩ => rfl
    | ⟨1, _⟩ => rfl
  refine (shapeCast_apply _ _ _ (ix1 q) ?_).trans ?_
  · rw [Shape.rowMajor_val_one, Shape.rowMajor_val_two]
    show q.val = 0 * 1024 + q.val
    omega
  rw [shapeCast_self]

/-- The output tile at (p, q) is the kernel form of the specification over the tiles: the single store covers the
    tile, the whole-buffer loads read their buffers, and the stored value at (p, q) is zero plus the eight plane
    products in order, less the zero-point product, plus the bias. -/
theorem tile_eq (x0 : Vec Ideal S8x64x512 .f32) (x1 : Vec Ideal S64x32 .f32) (x2 : Vec Ideal S512x1024 .i32)
    (x3 : Vec Ideal S32x128 .i32) (x4 : Vec Ideal S32x1024 .f32) (x5 : Vec Ideal S1024 .f32) (p : Fin 64) (q : Fin 1024) :
    out0_6 (F := Ideal) x0 x1 x2 x3 x4 x5 (ix2 p q)
      = Cert.GroupQuant.ker (N := 1024) (N8 := 128) rfl x2 x3 x4 x5 x0 x1 (ix2 p q) := by
  unfold out0_6
  rw [View.canon_unit_zero hz2]
  simp only [View.ld_unit_zero (S := S512x1024) hz2, View.ld_unit_zero (S := S32x1024) hz2,
    View.ld_unit_zero (S := S32x128) hz2, View.ld_unit_zero (S := S64x32) hz2, View.ld_unit_zero (S := S1024) hz1]
  simp only [k0_pay1, k0_pay10, k0_pay7, k0_pay5, k0_pay6, k0_pay8, k0_pay9, addf_apply, subf_apply, broadcast_apply]
  rw [plane_apply x0 x2 x4 _ _ 0#32 0 rfl rfl rfl rfl, plane_apply x0 x2 x4 _ _ 4#32 1 rfl rfl rfl rfl,
    plane_apply x0 x2 x4 _ _ 8#32 2 rfl rfl rfl rfl, plane_apply x0 x2 x4 _ _ 12#32 3 rfl rfl rfl rfl,
    plane_apply x0 x2 x4 _ _ 16#32 4 rfl rfl rfl rfl, plane_apply x0 x2 x4 _ _ 20#32 5 rfl rfl rfl rfl,
    plane_apply x0 x2 x4 _ _ 24#32 6 rfl rfl rfl rfl, plane_apply x0 x2 x4 _ _ 28#32 7 rfl rfl rfl rfl,
    zterm_apply, bias_apply]
  show Ideal.ofBits .f32 0x00000000#32 + _ + _ + _ + _ + _ + _ + _ + _ - _ + _ = _
  rw [Ideal.ofBits_zero_f32]
  rfl

end Cert.KernelIdeal.Tile

end
-- ==== Proof.HostReads.lean ====
/-
  What the region finds in each window's array, and what the one line after the region leaves, entry by entry over
  the extended reals. Before the region the program only re-lays its arguments: the packed weights, packed zero points,
  scales and bias are padded on the right with zeros up to 11264 (1408) columns, so a column below 11008 (1376) holds
  the argument's entry; x is regrouped [64, 512, 8] and turned so that plane j, row p, word i holds x[p, 8i+j]; and x
  regrouped [64, 32, 128] is summed along its last axis onto zero, so entry (p, g) is the sum of x[p, 128g+r] over r.
  After the region the first 11008 columns of the output array are kept.
-/
import proofs.«149651_j22058952032259_1_alg».proof.Proof.Gen.KernelIdeal.Frame
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.KernelVsHost

noncomputable section

namespace Cert.KernelIdeal.HostReads

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The arguments as launched, each at its literal type: x, the packed weights, the packed zero points, the scales, the bias. -/
abbrev xArg (c : Dev nD) : FVec Ideal S64x4096 .f32 := m ((c : Thread nD τ).loc main_arg0)
abbrev qwArg (c : Dev nD) : IVec S512x11008 32 := m ((c : Thread nD τ).loc main_arg1)
abbrev qzArg (c : Dev nD) : IVec S32x1376 32 := m ((c : Thread nD τ).loc main_arg2)
abbrev scArg (c : Dev nD) : FVec Ideal S32x11008 .f32 := m ((c : Thread nD τ).loc main_arg3)
abbrev bArg (c : Dev nD) : FVec Ideal S11008 .f32 := m ((c : Thread nD τ).loc main_arg4)

/-- The six arrays the region's input windows stage, as the region finds them, each at its literal type. -/
abbrev xsArr (c : Dev nD) : FVec Ideal S8x64x512 .f32 := V m c main_v5
abbrev xgArr (c : Dev nD) : FVec Ideal S64x32 .f32 := V m c main_v7
abbrev qwArr (c : Dev nD) : IVec S512x11264 32 := V m c main_v0
abbrev qzArr (c : Dev nD) : IVec S32x1408 32 := V m c main_v1
abbrev scArr (c : Dev nD) : FVec Ideal S32x11264 .f32 := V m c main_v2
abbrev bArr (c : Dev nD) : FVec Ideal S11264 .f32 := V m c main_v3
/-- The region's output array after the run, and the program's result after the line that follows the region. -/
abbrev outArr (c : Dev nD) : FVec Ideal S64x11264 .f32 := (dats m 0 c).arrAt 6 cfg0.N
abbrev resArr (c : Dev nD) : FVec Ideal S64x11008 .f32 := Pipeline.afterTail₀ cfgs (dats m) 0 (V0 m) [hostOps1] c main_v9

/-- Plane j, row p, word i of the turned view of x is x[p, 8i+j]. -/
theorem V_xs (c : Dev nD) (j : Fin 8) (p : Fin 64) (i : Fin 512) :
    xsArr m c (ix3 j p i) = xArg m c (ix2 p ⟨8 * i.val + j.val, by have := i.isLt; have := j.isLt; omega⟩) := by
  -- x regrouped as [64, 512, 8], then its axes turned so that the last comes first
  have e : (V m c main_v5 : S8x64x512.Idx → EReal)
      = transpose S8x64x512 [2, 0, 1] (shapeCast S64x512x8 (xArg m c) shapeCasts_S64x4096_S64x512x8) transposes_S64x512x8_S8x64x512_2_0_1 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results
    rfl
  refine (congrFun e _).trans ?_
  -- entry (j, p, i) of the turned array is entry (p, i, j) of the regrouped one,
  refine (transpose_apply _ _ _ _ (ix3 p i j) fun b =>
    match b with
    | ⟨0, _⟩ => rfl
    | ⟨1, _⟩ => rfl
    | ⟨2, _⟩ => rfl).trans ?_
  -- which sits at the same row-major position as x[p, 8i+j]: 4096 p + 8 i + j = (512 p + i) 8 + j
  refine shapeCast_apply _ _ _ _ ?_
  rw [Shape.rowMajor_val_two, Shape.rowMajor_val_three]
  show p.val * 4096 + (8 * i.val + j.val) = (p.val * 512 + i.val) * 8 + j.val
  omega

/-- Entry (p, g) of the group sums is the sum of x[p, 128g+r] over the 128 values of r. -/
theorem V_xg (c : Dev nD) (p : Fin 64) (g : Fin 32) :
    xgArr m c (ix2 p g) = ∑ r : Fin 128, xArg m c (ix2 p ⟨128 * g.val + r.val, by have := g.isLt; have := r.isLt; omega⟩) := by
  -- x regrouped as [64, 32, 128] and summed along its last axis onto the constant 0
  have e : (V m c main_v7 : S64x32.Idx → EReal)
      = Host.reduceAdd (F := Ideal) (shapeCast S64x32x128 (xArg m c) shapeCasts_S64x4096_S64x32x128)
          (constant (F := Ideal) S_ .f32 0x00000000#32) reducesTo_S64x32x128_S64x32_d2 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results
    rfl
  refine (congrFun e _).trans ?_
  have hR : S64x32x128.Reduces [2] S64x32 := by decide
  show Ideal.hostReduceAdd reducesTo_S64x32x128_S64x32_d2 _ _ _ = _
  -- over the extended reals that is the initial value plus the sum over the 128 coordinates of the last axis
  rw [Ideal.hostReduceAdd_single reducesTo_S64x32x128_S64x32_d2 hR]
  have h0 : constant (F := Ideal) S_ .f32 0x00000000#32 (Shape.Idx.first h_S_) = 0 := Ideal.ofBits_zero_f32
  rw [h0, zero_add]
  -- term by term: entry (p, g, r) of the regrouped array is x[p, 128g+r], as 4096 p + 128 g + r = (32 p + g) 128 + r
  show ∑ r : Fin 128, _ = _
  refine Finset.sum_congr rfl fun r _ => ?_
  refine shapeCast_apply _ _ _ _ ?_
  rw [Shape.rowMajor_val_two, Shape.rowMajor_val_three]
  show p.val * 4096 + (128 * g.val + r.val) = (p.val * 32 + g.val) * 128 + r.val
  omega

/-- A column below 11008 of the padded packed weights is the argument's. -/
theorem V_qw (c : Dev nD) (i : Fin 512) (n : Fin 11008) :
    qwArr m c (ix2 i ⟨n.val, by have := n.isLt; omega⟩) = qwArg m c (ix2 i n) := by
  -- the array is the argument with 256 columns of one constant word appended; column n < 11008 lies inside the argument
  have e : (V m c main_v0 : S512x11264.Idx → BitVec 32)
      = pad S512x11264 ![0, 0] ![0, 256] ![0, 0] (qwArg m c) (constantI S_ 32 0#32) pads_S512x11008_S512x11264_000_02560 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results
    rfl
  refine (congrFun e _).trans ?_
  exact pad_apply_of_inside _ _ _ _ _ _ _ _ (ix2 i n) fun a =>
    match a with
    | ⟨0, _⟩ => by show i.val = 0 + i.val * (0 + 1); omega
    | ⟨1, _⟩ => by show n.val = 0 + n.val * (0 + 1); omega

/-- A column below 1376 of the padded packed zero points is the argument's. -/
theorem V_qz (c : Dev nD) (g : Fin 32) (a : Fin 1376) :
    qzArr m c (ix2 g ⟨a.val, by have := a.isLt; omega⟩) = qzArg m c (ix2 g a) := by
  -- the argument with 32 columns of one constant word appended; column a < 1376 lies inside the argument
  have e : (V m c main_v1 : S32x1408.Idx → BitVec 32)
      = pad S32x1408 ![0, 0] ![0, 32] ![0, 0] (qzArg m c) (constantI S_ 32 0#32) pads_S32x1376_S32x1408_000_0320 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results
    rfl
  refine (congrFun e _).trans ?_
  exact pad_apply_of_inside _ _ _ _ _ _ _ _ (ix2 g a) fun d =>
    match d with
    | ⟨0, _⟩ => by show g.val = 0 + g.val * (0 + 1); omega
    | ⟨1, _⟩ => by show a.val = 0 + a.val * (0 + 1); omega

/-- A column below 11008 of the padded scales is the argument's. -/
theorem V_sc (c : Dev nD) (g : Fin 32) (n : Fin 11008) :
    scArr m c (ix2 g ⟨n.val, by have := n.isLt; omega⟩) = scArg m c (ix2 g n) := by
  -- the argument with 256 columns of one constant appended; column n < 11008 lies inside the argument
  have e : (V m c main_v2 : S32x11264.Idx → EReal)
      = pad S32x11264 ![0, 0] ![0, 256] ![0, 0] (scArg m c) (sitofp (F := Ideal) .f32 (constantI S_ 32 0#32)) pads_S32x11008_S32x11264_000_02560 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results
    rfl
  refine (congrFun e _).trans ?_
  exact pad_apply_of_inside _ _ _ _ _ _ _ _ (ix2 g n) fun d =>
    match d with
    | ⟨0, _⟩ => by show g.val = 0 + g.val * (0 + 1); omega
    | ⟨1, _⟩ => by show n.val = 0 + n.val * (0 + 1); omega

/-- An entry below 11008 of the padded bias is the argument's. -/
theorem V_bias (c : Dev nD) (n : Fin 11008) :
    bArr m c (ix1 ⟨n.val, by have := n.isLt; omega⟩) = bArg m c (ix1 n) := by
  -- the argument with 256 entries of one constant appended; entry n < 11008 lies inside the argument
  have e : (V m c main_v3 : S11264.Idx → EReal)
      = pad S11264 ![0] ![256] ![0] (bArg m c) (sitofp (F := Ideal) .f32 (constantI S_ 32 0#32)) pads_S11008_S11264_02560 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results
    rfl
  refine (congrFun e _).trans ?_
  exact pad_apply_of_inside _ _ _ _ _ _ _ _ (ix1 n) fun d =>
    match d with
    | ⟨0, _⟩ => by show n.val = 0 + n.val * (0 + 1); omega

/-- The result keeps the first 11008 columns of the region's output array. -/
theorem tail_v9 (c : Dev nD) (p : Fin 64) (n : Fin 11008) :
    resArr m c (ix2 p n) = outArr m c (ix2 p ⟨n.val, by have := n.isLt; omega⟩) := by
  -- the one line after the region cuts the rectangle [0, 64) × [0, 11008) out of the region's output array
  have e : (Pipeline.afterTail₀ cfgs (dats m) 0 (V0 m) [hostOps1] c main_v9 : S64x11008.Idx → EReal)
      = extractStridedSlice S64x11008 ![0, 0] (outArr m c) slices_S64x11264_S64x11008_0_0 := by
    unfold Pipeline.afterTail₀
    show StableHlo.after hostOps1 _ (Proc.devRef .tc main_v9) = _
    after_results
    exact congrArg (fun x => extractStridedSlice S64x11008 ![0, 0] x slices_S64x11264_S64x11008_0_0)
      (Pipeline.withArrays_arr spec0 launch0.win.arr_inj c _ _ 6)
  refine (congrFun e _).trans ?_
  exact extractStridedSlice_apply _ _ _ _ _ fun d =>
    match d with
    | ⟨0, _⟩ => by show p.val = 0 + p.val; omega
    | ⟨1, _⟩ => by show n.val = 0 + n.val; omega

end Cert.KernelIdeal.HostReads

end
-- ==== Proof.Algebra.lean ====
/-
  The two ways of writing the quantized product agree (Spec.lean): where x and the scales are real numbers,
      Σ_k x[p,k] · s[k/128,n] · (w[k,n] − z[k/128,n])
        = Σ_j Σ_i x[p,8i+j] · (w[8i+j,n] · s[i/16,n])  −  Σ_g (Σ_r x[p,128g+r]) · (s[g,n] · z[g,n]),
  by distributing the product over the difference (the nibbles lie in 0…15 and the zero points in 1…16, so the
  difference of the words is the difference of the integers), splitting k as 8i+j for the first sum and as 128g+r
  for the second. The kernel form is read on arrays padded to 11264 columns, of which only the first 11008 are kept.
-/
import proofs.«149651_j22058952032259_1_alg».proof.Proof.Spec
import Mathlib.Algebra.BigOperators.Fin
import Mathlib.Algebra.BigOperators.Ring.Finset
import Mathlib.Logic.Equiv.Fin.Basic
import Mathlib.Data.EReal.Operations
import Mathlib.Tactic.Ring

noncomputable section

namespace Cert.GroupQuant

open Idealize.ShloMosaic Idealize.ShloMosaic.ValueIdx

/-- A nibble of a word lies in 0 … 15. -/
private theorem nib_le (w : BitVec 32) (j : Fin 8) : (nib w j).toNat ≤ 15 := by
  unfold nib
  rw [BitVec.toNat_and]
  exact Nat.and_le_right

/-- So its sign bit is clear: read signed it is the natural number it holds. -/
private theorem nib_toInt (w : BitVec 32) (j : Fin 8) : (nib w j).toInt = ((nib w j).toNat : ℤ) := by
  have h := nib_le w j
  rw [BitVec.toInt_eq_toNat_cond]
  split
  · rfl
  · omega

/-- Adding one to a nibble does not wrap. -/
private theorem zp_toNat (w : BitVec 32) (j : Fin 8) : (zp w j).toNat = (nib w j).toNat + 1 := by
  have h := nib_le w j
  unfold zp
  rw [BitVec.toNat_add]
  simp only [BitVec.toNat_ofNat]
  omega

/-- The zero point read signed is the nibble read signed, plus one. -/
private theorem zp_toInt (w : BitVec 32) (j : Fin 8) : (zp w j).toInt = (nib w j).toInt + 1 := by
  have h := nib_le w j
  have hz := zp_toNat w j
  rw [nib_toInt, BitVec.toInt_eq_toNat_cond]
  split
  · omega
  · omega

/-- A nibble less a zero point lies in −16 … 14, so the difference of the words is the difference of the integers. -/
private theorem sub_toInt (a c : BitVec 32) (i j : Fin 8) :
    (nib a i - zp c j).toInt = (nib a i).toInt - (zp c j).toInt := by
  have ha := nib_le a i
  have hc := nib_le c j
  have hz := zp_toNat c j
  rw [zp_toInt, nib_toInt, nib_toInt, BitVec.toInt_eq_toNat_cond, BitVec.toNat_sub, hz]
  split <;> omega

/-- A sum over `m·n` indices is the double sum over `k = n·i + j`. -/
private theorem sum_split {M : Type*} [AddCommMonoid M] {m n N : ℕ} (hN : N = m * n)
    (hlt : ∀ (i : Fin m) (j : Fin n), n * i.val + j.val < N) (f : Fin N → M) :
    ∑ k, f k = ∑ i : Fin m, ∑ j : Fin n, f ⟨n * i.val + j.val, hlt i j⟩ := by
  subst hN
  rw [← Equiv.sum_comp finProdFinEquiv f, Fintype.sum_prod_type]
  refine Finset.sum_congr rfl fun i _ => Finset.sum_congr rfl fun j _ => ?_
  congr 1
  apply Fin.ext
  simp only [finProdFinEquiv, Equiv.coe_fn_mk]
  omega

/-- Row `8i + j` lies in word `i`, -/
private theorem kWord_mk (i : Fin 512) (j : Fin 8) (h : 8 * i.val + j.val < 4096) : kWord ⟨8 * i.val + j.val, h⟩ = i := by
  apply Fin.ext; simp only [kWord]; omega
/-- at nibble `j`, -/
private theorem kNib_mk (i : Fin 512) (j : Fin 8) (h : 8 * i.val + j.val < 4096) : kNib ⟨8 * i.val + j.val, h⟩ = j := by
  apply Fin.ext; simp only [kNib]; omega
/-- in the group of word `i`. -/
private theorem kGroup_mk8 (i : Fin 512) (j : Fin 8) (h : 8 * i.val + j.val < 4096) :
    kGroup ⟨8 * i.val + j.val, h⟩ = wGroup i := by
  apply Fin.ext; simp only [kGroup, wGroup]; omega
/-- Row `128g + r` lies in group `g`. -/
private theorem kGroup_mk128 (g : Fin 32) (r : Fin 128) (h : 128 * g.val + r.val < 4096) :
    kGroup ⟨128 * g.val + r.val, h⟩ = g := by
  apply Fin.ext; simp only [kGroup]; omega

/-- The identity over the reals: distribute the product over the difference, split the rows as `8i + j` in the first
    sum (and sum plane by plane) and as `128g + r` in the second (where everything but x depends on `g` alone). -/
private theorem core_real (X : Fin 4096 → ℝ) (S : Fin 32 → ℝ) (A : Fin 512 → Fin 8 → ℝ) (Z : Fin 32 → ℝ) :
    ∑ k : Fin 4096, X k * (S (kGroup k) * (A (kWord k) (kNib k) - Z (kGroup k)))
      = (∑ j : Fin 8, ∑ i : Fin 512, X ⟨8 * i.val + j.val, by omega⟩ * (A i j * S (wGroup i)))
        - ∑ g : Fin 32, (∑ r : Fin 128, X ⟨128 * g.val + r.val, by omega⟩) * (S g * Z g) := by
  have h1 : ∀ k : Fin 4096, X k * (S (kGroup k) * (A (kWord k) (kNib k) - Z (kGroup k)))
      = X k * (A (kWord k) (kNib k) * S (kGroup k)) - X k * (S (kGroup k) * Z (kGroup k)) := fun k => by ring
  simp only [h1, Finset.sum_sub_distrib]
  congr 1
  · rw [sum_split (m := 512) (n := 8) rfl (fun i j => by omega), Finset.sum_comm]
    refine Finset.sum_congr rfl fun j _ => Finset.sum_congr rfl fun i _ => ?_
    rw [kWord_mk, kNib_mk, kGroup_mk8]
  · rw [sum_split (m := 32) (n := 128) rfl (fun g r => by omega)]
    refine Finset.sum_congr rfl fun g _ => ?_
    rw [Finset.sum_mul]
    refine Finset.sum_congr rfl fun r _ => ?_
    rw [kGroup_mk128]

/-- The coercion of the reals into the extended reals commutes with finite sums. -/
private theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The statement over explicit coordinates `p`, `n`: the padded arrays are read at column `n` below 11008 only. -/
private theorem ker_eq_ref_at
    (x : FVec Ideal ⟨2, ![64, 4096]⟩ .f32) (qw : IVec ⟨2, ![512, 11008]⟩ 32) (qz : IVec ⟨2, ![32, 1376]⟩ 32)
    (sc : FVec Ideal ⟨2, ![32, 11008]⟩ .f32) (b : FVec Ideal ⟨1, ![11008]⟩ .f32)
    (xs : FVec Ideal ⟨3, ![8, 64, 512]⟩ .f32) (xg : FVec Ideal ⟨2, ![64, 32]⟩ .f32)
    (qwp : IVec ⟨2, ![512, 11264]⟩ 32) (qzp : IVec ⟨2, ![32, 1408]⟩ 32)
    (scp : FVec Ideal ⟨2, ![32, 11264]⟩ .f32) (bp : FVec Ideal ⟨1, ![11264]⟩ .f32)
    (hxs : ∀ (j : Fin 8) (p : Fin 64) (i : Fin 512),
      xs (ix3 j p i) = x (ix2 p ⟨8 * i.val + j.val, by have := i.isLt; have := j.isLt; omega⟩))
    (hxg : ∀ (p : Fin 64) (g : Fin 32),
      xg (ix2 p g) = ∑ r : Fin 128, x (ix2 p ⟨128 * g.val + r.val, by have := g.isLt; have := r.isLt; omega⟩))
    (hqw : ∀ (i : Fin 512) (n : Fin 11008), qwp (ix2 i ⟨n.val, by have := n.isLt; omega⟩) = qw (ix2 i n))
    (hqz : ∀ (g : Fin 32) (a : Fin 1376), qzp (ix2 g ⟨a.val, by have := a.isLt; omega⟩) = qz (ix2 g a))
    (hsc : ∀ (g : Fin 32) (n : Fin 11008), scp (ix2 g ⟨n.val, by have := n.isLt; omega⟩) = sc (ix2 g n))
    (hb : ∀ n : Fin 11008, bp (ix1 ⟨n.val, by have := n.isLt; omega⟩) = b (ix1 n))
    (fx : ∀ i, ∃ r : ℝ, x i = (r : EReal)) (fsc : ∀ i, ∃ r : ℝ, sc i = (r : EReal))
    (p : Fin 64) (n : Fin 11008) (h : n.val < 11264) :
    ((0 + plane qwp scp xs 0 p (⟨n.val, h⟩ : Fin 11264) + plane qwp scp xs 1 p ⟨n.val, h⟩ + plane qwp scp xs 2 p ⟨n.val, h⟩
        + plane qwp scp xs 3 p ⟨n.val, h⟩ + plane qwp scp xs 4 p ⟨n.val, h⟩ + plane qwp scp xs 5 p ⟨n.val, h⟩
        + plane qwp scp xs 6 p ⟨n.val, h⟩ + plane qwp scp xs 7 p ⟨n.val, h⟩)
      - zterm (N := 11264) (N8 := 1408) rfl qzp scp xg p ⟨n.val, h⟩) + bp (ix1 ⟨n.val, h⟩)
      = (∑ k : Fin 4096, x (ix2 p k) * deq (N := 11008) (N8 := 1376) rfl qw qz sc k n) + b (ix1 n) := by
  -- the padded zero-point words and nibble positions at column `n` are the unpadded ones
  have hqz' : ∀ g : Fin 32, qzp (ix2 g (nWord (N := 11264) (N8 := 1408) rfl (⟨n.val, h⟩ : Fin 11264)))
      = qz (ix2 g (nWord (N := 11008) (N8 := 1376) rfl n)) := fun g => hqz g (nWord rfl n)
  have hnib : nNib (⟨n.val, h⟩ : Fin 11264) = nNib n := rfl
  -- both sides in terms of x, the packed words, the scales and the bias alone
  simp only [plane, zterm, deq, hxs, hxg, hqw, hsc, hb, hqz', hnib]
  -- x and the scales are real; so is every word read as an integer, and the difference of a nibble and a zero point
  choose X hX using fx
  choose S hS using fsc
  have hA : ∀ (a c : BitVec 32) (i j : Fin 8),
      ofWord (nib a i - zp c j) = ((((nib a i).toInt : ℝ) - ((zp c j).toInt : ℝ) : ℝ) : EReal) := by
    intro a c i j
    simp only [ofWord, sub_toInt, Int.cast_sub]
  -- the identity over the reals at this row of x and this column, the eight planes laid out in order
  have core := core_real (fun k => X (ix2 p k)) (fun g => S (ix2 g n))
    (fun i j => ((nib (qw (ix2 i n)) j).toInt : ℝ))
    (fun g => ((zp (qz (ix2 g (nWord (N := 11008) (N8 := 1376) rfl n))) (nNib n)).toInt : ℝ))
  rw [Fin.sum_univ_eight] at core
  beta_reduce at core
  -- each side is a real number plus the bias (which may be infinite and is left alone)
  simp only [hA]
  simp only [hX, hS, ofWord, zero_add]
  simp only [← EReal.coe_mul, ← coe_sum, ← EReal.coe_add, ← EReal.coe_sub]
  rw [core]

theorem ker_eq_ref
    (x : FVec Ideal ⟨2, ![64, 4096]⟩ .f32) (qw : IVec ⟨2, ![512, 11008]⟩ 32) (qz : IVec ⟨2, ![32, 1376]⟩ 32)
    (sc : FVec Ideal ⟨2, ![32, 11008]⟩ .f32) (b : FVec Ideal ⟨1, ![11008]⟩ .f32)
    (xs : FVec Ideal ⟨3, ![8, 64, 512]⟩ .f32) (xg : FVec Ideal ⟨2, ![64, 32]⟩ .f32)
    (qwp : IVec ⟨2, ![512, 11264]⟩ 32) (qzp : IVec ⟨2, ![32, 1408]⟩ 32)
    (scp : FVec Ideal ⟨2, ![32, 11264]⟩ .f32) (bp : FVec Ideal ⟨1, ![11264]⟩ .f32)
    (hxs : ∀ (j : Fin 8) (p : Fin 64) (i : Fin 512),
      xs (ix3 j p i) = x (ix2 p ⟨8 * i.val + j.val, by have := i.isLt; have := j.isLt; omega⟩))
    (hxg : ∀ (p : Fin 64) (g : Fin 32),
      xg (ix2 p g) = ∑ r : Fin 128, x (ix2 p ⟨128 * g.val + r.val, by have := g.isLt; have := r.isLt; omega⟩))
    (hqw : ∀ (i : Fin 512) (n : Fin 11008), qwp (ix2 i ⟨n.val, by have := n.isLt; omega⟩) = qw (ix2 i n))
    (hqz : ∀ (g : Fin 32) (a : Fin 1376), qzp (ix2 g ⟨a.val, by have := a.isLt; omega⟩) = qz (ix2 g a))
    (hsc : ∀ (g : Fin 32) (n : Fin 11008), scp (ix2 g ⟨n.val, by have := n.isLt; omega⟩) = sc (ix2 g n))
    (hb : ∀ n : Fin 11008, bp (ix1 ⟨n.val, by have := n.isLt; omega⟩) = b (ix1 n))
    (fx : ∀ i, ∃ r : ℝ, x i = (r : EReal)) (fsc : ∀ i, ∃ r : ℝ, sc i = (r : EReal))
    (p : Fin 64) (n : Fin 11008) :
    ker (N := 11264) (N8 := 1408) rfl qwp qzp scp bp xs xg (ix2 p ⟨n.val, by have := n.isLt; omega⟩)
      = ref (N := 11008) (N8 := 1376) rfl qw qz sc b x (ix2 p n) := by
  exact ker_eq_ref_at x qw qz sc b xs xg qwp qzp scp bp hxs hxg hqw hqz hsc hb fx fsc p n _

end Cert.GroupQuant

end
-- ==== Proof.Final.lean ====
/-
  From tiles to the array. The region's grid has 11 points; point t stages columns 1024·t … 1024·t + 1023 of the
  padded weights, scales and bias (columns 128·t … 128·t + 127 of the packed zero points), the two views of x whole,
  and writes back columns 1024·t … of the output. The kernel form `ker` (Spec.lean) is local in the column: its
  entry (p, n) reads the weights, scales and bias at column n and the zero points at word n / 8, nibble n % 8, and
  (1024·t + q) / 8 = 128·t + q / 8, (1024·t + q) % 8 = q % 8. So the tile the body leaves at point t (Tile.lean) is
  tile t of `ker` over the whole padded arrays, the eleven tiles cover all 11264 columns, and the output array after
  the run is `ker` of the arrays the region found.
-/
import proofs.«149651_j22058952032259_1_alg».proof.Proof.Gen.KernelIdeal.Frame
import proofs.«149651_j22058952032259_1_alg».proof.Proof.Spec
import proofs.«149651_j22058952032259_1_alg».proof.Proof.Tile
import proofs.«149651_j22058952032259_1_alg».proof.Proof.HostReads
import proofs.«149651_j22058952032259_1_alg».proof.Proof.Algebra
import Idealize.ShloMosaic.Lib.Pipeline.Value
import Idealize.ShloMosaic.Lib.ValueIdx

noncomputable section

namespace Cert.GroupQuant

open Idealize.ShloMosaic Idealize.ShloMosaic.ValueIdx

/-- `ker` is local in the column: over tiles that are columns 1024·T … of the padded arrays (zero points: words
    128·T …), entry (p, q) of the tile's `ker` is entry (p, 1024·T + q) of the arrays' `ker`. -/
theorem ker_tile (xs : FVec Ideal ⟨3, ![8, 64, 512]⟩ .f32) (xg : FVec Ideal ⟨2, ![64, 32]⟩ .f32)
    (qw : IVec ⟨2, ![512, 11264]⟩ 32) (qz : IVec ⟨2, ![32, 1408]⟩ 32) (sc : FVec Ideal ⟨2, ![32, 11264]⟩ .f32)
    (b : FVec Ideal ⟨1, ![11264]⟩ .f32)
    (qwt : IVec ⟨2, ![512, 1024]⟩ 32) (qzt : IVec ⟨2, ![32, 128]⟩ 32) (sct : FVec Ideal ⟨2, ![32, 1024]⟩ .f32)
    (bt : FVec Ideal ⟨1, ![1024]⟩ .f32) (T : ℕ) (hT : T < 11)
    (hqw : ∀ (i : Fin 512) (q : Fin 1024), qwt (ix2 i q) = qw (ix2 i ⟨1024 * T + q.val, by have := q.isLt; omega⟩))
    (hqz : ∀ (g : Fin 32) (a : Fin 128), qzt (ix2 g a) = qz (ix2 g ⟨128 * T + a.val, by have := a.isLt; omega⟩))
    (hsc : ∀ (g : Fin 32) (q : Fin 1024), sct (ix2 g q) = sc (ix2 g ⟨1024 * T + q.val, by have := q.isLt; omega⟩))
    (hb : ∀ q : Fin 1024, bt (ix1 q) = b (ix1 ⟨1024 * T + q.val, by have := q.isLt; omega⟩))
    (p : Fin 64) (q : Fin 1024) :
    ker (N := 1024) (N8 := 128) rfl qwt qzt sct bt xs xg (ix2 p q)
      = ker (N := 11264) (N8 := 1408) rfl qw qz sc b xs xg (ix2 p ⟨1024 * T + q.val, by have := q.isLt; omega⟩) := by
  have hw : nWord (N := 11264) (N8 := 1408) rfl ⟨1024 * T + q.val, by have := q.isLt; omega⟩
      = ⟨128 * T + (nWord (N := 1024) (N8 := 128) rfl q).val, by have := (nWord (N := 1024) (N8 := 128) rfl q).isLt; omega⟩ :=
    Fin.ext (by show (1024 * T + q.val) / 8 = 128 * T + q.val / 8; omega)
  have hn : nNib (⟨1024 * T + q.val, by have := q.isLt; omega⟩ : Fin 11264) = nNib q :=
    Fin.ext (by show (1024 * T + q.val) % 8 = q.val % 8; omega)
  simp only [ker, plane, zterm, hqw, hsc, hb, hqz, hw, hn]

end Cert.GroupQuant

namespace Cert.KernelIdeal.Final

open Cert.KernelIdeal Cert.KernelIdeal.Gen Cert.KernelIdeal.HostReads Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-- The output array as one function of the arrays the region finds: the kernel form over all 11264 columns. -/
abbrev whole (c : Dev nD) : FVec Ideal S64x11264 .f32 :=
  Cert.GroupQuant.ker (N := 11264) (N8 := 1408) rfl (qwArr m c) (qzArr m c) (scArr m c) (bArr m c) (xsArr m c) (xgArr m c)

/-- The printed index maps over the grid: the two views of x stay at block 0; the weights, zero points, scales, bias
    and the output move along the columns with the point. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 1) = t.val
    ∧ win0_6.index t (0 : Fin 2) = 0 ∧ win0_6.index t (1 : Fin 2) = t.val :=
  (by decide +kernel : ∀ t : Fin grid0.N, _)

/-- The grid's points are 0 … 10. -/
theorem point_lt (t : Fin cfg0.N) : t.val < 11 := by
  have h := t.isLt
  have e : cfg0.N = 11 := N_0
  omega

/-- The six input windows' blocks at point `t`, each at its literal type. -/
abbrev xsBlk (c : Dev nD) (t : Fin cfg0.N) : FVec Ideal S8x64x512 .f32 := iblk m c 0 t
abbrev xgBlk (c : Dev nD) (t : Fin cfg0.N) : FVec Ideal S64x32 .f32 := iblk m c 1 t
abbrev qwBlk (c : Dev nD) (t : Fin cfg0.N) : IVec S512x1024 32 := iblk m c 2 t
abbrev qzBlk (c : Dev nD) (t : Fin cfg0.N) : IVec S32x128 32 := iblk m c 3 t
abbrev scBlk (c : Dev nD) (t : Fin cfg0.N) : FVec Ideal S32x1024 .f32 := iblk m c 4 t
abbrev bBlk (c : Dev nD) (t : Fin cfg0.N) : FVec Ideal S1024 .f32 := iblk m c 5 t

/-- The turned view of x is staged whole at every point. -/
theorem xsBlk_eq (c : Dev nD) (t : Fin cfg0.N) : xsBlk m c t = xsArr m c := by
  obtain ⟨e0, e1, e2, -⟩ := idx_facts t
  funext y
  show V m c main_v5 (((cfg0.win 0).blk t).view.emb y) = V m c main_v5 y
  congr 1
  funext a; apply Fin.ext
  match a with
  | ⟨0, _⟩ => show win0_0.index t (0 : Fin 3) * 8 + 1 * (y 0).val = (y 0).val; omega
  | ⟨1, _⟩ => show win0_0.index t (1 : Fin 3) * 64 + 1 * (y 1).val = (y 1).val; omega
  | ⟨2, _⟩ => show win0_0.index t (2 : Fin 3) * 512 + 1 * (y 2).val = (y 2).val; omega

/-- So are the group sums of x. -/
theorem xgBlk_eq (c : Dev nD) (t : Fin cfg0.N) : xgBlk m c t = xgArr m c := by
  obtain ⟨-, -, -, e0, e1, -⟩ := idx_facts t
  funext y
  show V m c main_v7 (((cfg0.win 1).blk t).view.emb y) = V m c main_v7 y
  congr 1
  funext a; apply Fin.ext
  match a with
  | ⟨0, _⟩ => show win0_1.index t (0 : Fin 2) * 64 + 1 * (y 0).val = (y 0).val; omega
  | ⟨1, _⟩ => show win0_1.index t (1 : Fin 2) * 32 + 1 * (y 1).val = (y 1).val; omega

/-- Column q of the packed weights' tile at point t is column 1024·t + q of the padded array. -/
theorem qwBlk_apply (c : Dev nD) (t : Fin cfg0.N) (i : Fin 512) (q : Fin 1024) :
    qwBlk m c t (ix2 i q) = qwArr m c (ix2 i ⟨1024 * t.val + q.val, by have := point_lt t; have := q.isLt; omega⟩) := by
  obtain ⟨-, -, -, -, -, e0, e1, -⟩ := idx_facts t
  show V m c main_v0 (((cfg0.win 2).blk t).view.emb (ix2 i q)) = V m c main_v0 _
  congr 1
  funext a; apply Fin.ext
  match a with
  | ⟨0, _⟩ => show win0_2.index t (0 : Fin 2) * 512 + 1 * i.val = i.val; omega
  | ⟨1, _⟩ => show win0_2.index t (1 : Fin 2) * 1024 + 1 * q.val = 1024 * t.val + q.val; omega

/-- Word a of the packed zero points' tile at point t is word 128·t + a of the padded array. -/
theorem qzBlk_apply (c : Dev nD) (t : Fin cfg0.N) (g : Fin 32) (a : Fin 128) :
    qzBlk m c t (ix2 g a) = qzArr m c (ix2 g ⟨128 * t.val + a.val, by have := point_lt t; have := a.isLt; omega⟩) := by
  obtain ⟨-, -, -, -, -, -, -, e0, e1, -⟩ := idx_facts t
  show V m c main_v1 (((cfg0.win 3).blk t).view.emb (ix2 g a)) = V m c main_v1 _
  congr 1
  funext d; apply Fin.ext
  match d with
  | ⟨0, _⟩ => show win0_3.index t (0 : Fin 2) * 32 + 1 * g.val = g.val; omega
  | ⟨1, _⟩ => show win0_3.index t (1 : Fin 2) * 128 + 1 * a.val = 128 * t.val + a.val; omega

/-- Column q of the scales' tile at point t is column 1024·t + q of the padded array. -/
theorem scBlk_apply (c : Dev nD) (t : Fin cfg0.N) (g : Fin 32) (q : Fin 1024) :
    scBlk m c t (ix2 g q) = scArr m c (ix2 g ⟨1024 * t.val + q.val, by have := point_lt t; have := q.isLt; omega⟩) := by
  obtain ⟨-, -, -, -, -, -, -, -, -, e0, e1, -⟩ := idx_facts t
  show V m c main_v2 (((cfg0.win 4).blk t).view.emb (ix2 g q)) = V m c main_v2 _
  congr 1
  funext d; apply Fin.ext
  match d with
  | ⟨0, _⟩ => show win0_4.index t (0 : Fin 2) * 32 + 1 * g.val = g.val; omega
  | ⟨1, _⟩ => show win0_4.index t (1 : Fin 2) * 1024 + 1 * q.val = 1024 * t.val + q.val; omega

/-- Entry q of the bias tile at point t is entry 1024·t + q of the padded array. -/
theorem bBlk_apply (c : Dev nD) (t : Fin cfg0.N) (q : Fin 1024) :
    bBlk m c t (ix1 q) = bArr m c (ix1 ⟨1024 * t.val + q.val, by have := point_lt t; have := q.isLt; omega⟩) := by
  obtain ⟨-, -, -, -, -, -, -, -, -, -, -, e0, -⟩ := idx_facts t
  show V m c main_v3 (((cfg0.win 5).blk t).view.emb (ix1 q)) = V m c main_v3 _
  congr 1
  funext d; apply Fin.ext
  match d with
  | ⟨0, _⟩ => show win0_5.index t (0 : Fin 1) * 1024 + 1 * q.val = 1024 * t.val + q.val; omega

/-- Reading any array through the output window's block at point `t`. -/
theorem read_whole (G : FVec Ideal S64x11264 .f32) (t : Fin cfg0.N) (j : ((cfg0.win 6).xblock (grid0.coords t)).Idx) :
    ((cfg0.win 6).blk t).view.read (Elt Ideal) G j = G (((cfg0.win 6).blk t).view.emb j) := rfl

/-- The output window is written back whole: what a write-back moves of a tile is the tile. -/
theorem cut_tile (X : FVec Ideal S64x1024 .f32) (t : Fin cfg0.N) (j : ((cfg0.win 6).xblock (grid0.coords t)).Idx) :
    (cfg0.win 6).cut (grid0.coords t) X j = X (ix2 (n0 := 64) (n1 := 1024) (j 0) (j 1)) := by
  show X ((cfg0.win 6).xinj (grid0.coords t) j) = _
  congr 1
  funext a; apply Fin.ext
  match a with
  | ⟨0, _⟩ => rfl
  | ⟨1, _⟩ => rfl

/-- What point `t` writes back is tile `t` of the kernel form over the whole arrays. -/
theorem flushed_eq (c : Dev nD) (t : Fin cfg0.N) :
    (dats m 0 c).flushed 6 t = ((cfg0.win 6).blk t).view.read (Elt Ideal) (whole m c) := by
  show (cfg0.win 6).cut (grid0.coords t) ((dats m 0 c).after 6 t) = _
  rw [after0_6]
  obtain ⟨-, -, -, -, -, -, -, -, -, -, -, -, e0, e1⟩ := idx_facts t
  funext j
  rw [read_whole, cut_tile]
  refine (Cert.KernelIdeal.Tile.tile_eq (xsBlk m c t) (xgBlk m c t) (qwBlk m c t) (qzBlk m c t) (scBlk m c t) (bBlk m c t) (j 0) (j 1)).trans ?_
  rw [xsBlk_eq, xgBlk_eq]
  refine (Cert.GroupQuant.ker_tile (xsArr m c) (xgArr m c) (qwArr m c) (qzArr m c) (scArr m c) (bArr m c)
    (qwBlk m c t) (qzBlk m c t) (scBlk m c t) (bBlk m c t) t.val (point_lt t)
    (qwBlk_apply m c t) (qzBlk_apply m c t) (scBlk_apply m c t) (bBlk_apply m c t) (j 0) (j 1)).trans ?_
  congr 1
  funext a; apply Fin.ext
  match a with
  | ⟨0, _⟩ => show (j 0).val = win0_6.index t (0 : Fin 2) * 64 + 1 * (j 0).val; omega
  | ⟨1, _⟩ => show 1024 * t.val + (j 1).val = win0_6.index t (1 : Fin 2) * 1024 + 1 * (j 1).val; omega

/-- An index of the output array is in point `t`'s block iff each coordinate is in the block's range on its axis. -/
theorem mem_blk (t : Fin cfg0.N) (i : S64x11264.Idx) :
    i ∈ ((cfg0.win 6).blk t).view.set ↔ ∀ a : Fin 2, win0_6.index t a * S64x1024.size a ≤ (i a).val ∧ (i a).val < win0_6.index t a * S64x1024.size a + S64x1024.size a := by
  show i ∈ ((View.whole main_v8).slice (win0_6.rect t)).set ↔ _
  rw [View.set_slice_whole, Rect.mem_set_unit]
  exact Iff.rfl

/-- The eleven tiles cover the array: column n lies in the tile of point n / 1024. -/
theorem cover (i : S64x11264.Idx) : ∃ t : Fin cfg0.N, (cfg0.win 6).flush t = true ∧ i ∈ ((cfg0.win 6).blk t).view.set := by
  have hi0 : (i 0).val < 64 := (i 0).isLt
  have hi1 : (i 1).val < 11264 := (i 1).isLt
  have hN : cfg0.N = 11 := N_0
  obtain ⟨t, ht⟩ : ∃ t : Fin cfg0.N, t.val = (i 1).val / 1024 := ⟨⟨(i 1).val / 1024, by omega⟩, rfl⟩
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 64 ≤ (i 0).val ∧ (i 0).val < win0_6.index t (0 : Fin 2) * 64 + 64; omega
  | ⟨1, _⟩ => show win0_6.index t (1 : Fin 2) * 1024 ≤ (i 1).val ∧ (i 1).val < win0_6.index t (1 : Fin 2) * 1024 + 1024; omega

/-- The output array after the run is the kernel form over the arrays the region found. -/
theorem final (c : Dev nD) : outArr m c = whole m c :=
  (dats m 0 c).arrAt_eq_of_cover 6 (whole m c) (fun t _ => flushed_eq m c t) cover

/-- The program's result, where x and the scales are real: the reference form of the arguments. Entry (p, n) is
    entry (p, n) of the output array (the first 11008 columns are kept), which is the kernel form over the padded
    arrays and the two views of x, and that is the reference form (Algebra.lean). -/
theorem result_eq (c : Dev nD) (hx : ∀ i, ∃ r : ℝ, xArg m c i = (r : EReal)) (hs : ∀ i, ∃ r : ℝ, scArg m c i = (r : EReal)) :
    resArr m c = Cert.GroupQuant.ref (N := 11008) (N8 := 1376) rfl (qwArg m c) (qzArg m c) (scArg m c) (bArg m c) (xArg m c) := by
  funext i
  obtain ⟨p, n, rfl⟩ : ∃ (p : Fin 64) (n : Fin 11008), i = ix2 p n := ⟨i 0, i 1, eq_ix2 i⟩
  rw [tail_v9, final]
  exact Cert.GroupQuant.ker_eq_ref (xArg m c) (qwArg m c) (qzArg m c) (scArg m c) (bArg m c) (xsArr m c) (xgArr m c)
    (qwArr m c) (qzArr m c) (scArr m c) (bArr m c) (V_xs m c) (V_xg m c) (V_qw m c) (V_qz m c) (V_sc m c) (V_bias m c) hx hs p n

/-- The run, read: every weakly fair execution ends with the result buffer at what the line after the region leaves
    and the five arguments as launched. -/
theorem run_value : θ_run defs (onTc (τ := τ) (main (F := Ideal))) ⟨m, fun _ => 0, ρ⟩ fun r => ∀ c : Dev nD,
      r.2.mem ((c.tc : Thread nD τ).loc main_v9) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).2 main_v9 (Pipeline.mem_restRefs_of main_v9 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.Finite.lean ====
/-
  Under the precondition every entry of x and of the scales is a real number: the precondition is the conjunction,
  over the float arguments, of "every entry's absolute value is below +infinity", and an extended real whose
  absolute value is below +infinity is neither infinity.
-/
import proofs.«149651_j22058952032259_1_alg».proof.Defs
import Idealize.ShloMosaic.Lib.ValueIdx
import Idealize.ShloMosaic.Lib.ReduceAll

noncomputable section

namespace Cert.Finite

open Idealize.ShloMosaic Idealize.ShloMosaic.ValueIdx

/-- The scalar shape has a single index. -/
private instance subsingleton_scalarIdx : Subsingleton Cert.Pre_finite_inputs.S_.Idx :=
  ⟨fun _ _ => funext fun d => d.elim0⟩

/-- The word 0x7F800000 denotes +infinity. -/
private theorem ofBits_posInf : Ideal.ofBits .f32 0x7F800000#32 = (⊤ : EReal) := by
  simp [Ideal.ofBits, Ideal.ieee]

/-- An extended real whose absolute value, max x (-x), lies strictly below +infinity is a real number:
    at either infinity the absolute value is +infinity itself. -/
private theorem real_of_abs_lt_top (x : EReal) (h : max x (-x) < ⊤) : ∃ r : ℝ, x = (r : EReal) := by
  induction x using EReal.rec with
  | bot => simp at h
  | top => simp at h
  | coe r => exact ⟨r, rfl⟩

/-- The comparison "|x| < +infinity" coming out true makes x real. -/
private theorem real_of_cmp (x : Ideal .f32)
    (h : FloatOps.cmpf .olt (FloatOps.hostAbsf x) (FloatOps.ofBits .f32 0x7F800000#32 : Ideal .f32) = 1#1) :
    ∃ r : ℝ, x = (r : EReal) := by
  apply real_of_abs_lt_top
  have h' : Ideal.cmp .olt (max x (-x)) (Ideal.ofBits .f32 0x7F800000#32) = 1#1 := h
  rw [ofBits_posInf] at h'
  by_contra hn
  simp [Ideal.cmp, hn] at h'

/-- The precondition's function all ones makes x and the scales real entry by entry. -/
theorem real_of_fn [Cert.Pre_finite_inputs.Facts] (a0 : FVec Ideal Cert.Pre_finite_inputs.S64x4096 .f32)
    (a1 : IVec Cert.Pre_finite_inputs.S512x11008 32) (a2 : IVec Cert.Pre_finite_inputs.S32x1376 32)
    (a3 : FVec Ideal Cert.Pre_finite_inputs.S32x11008 .f32) (a4 : FVec Ideal Cert.Pre_finite_inputs.S11008 .f32)
    (h : Cert.Pre_finite_inputs.fn (F := Ideal) a0 a1 a2 a3 a4 = (fun _ => 1#1)) :
    (∀ i, ∃ r : ℝ, a0 i = (r : EReal)) ∧ (∀ i, ∃ r : ℝ, a3 i = (r : EReal)) := by
  have h0 := congrFun h ValueIdx.ix0
  dsimp only [Cert.Pre_finite_inputs.fn] at h0
  -- the outer conjunction: (x's test ∧ the scales' test) ∧ the bias's test
  obtain ⟨h01, -⟩ := IntOp.andi_eq_one.1 h0
  obtain ⟨hx, hs⟩ := IntOp.andi_eq_one.1 h01
  refine ⟨fun i => ?_, fun i => ?_⟩
  · exact real_of_cmp _ (Host.reduce_andi_all _ _ _ _ _ hx i)
  · exact real_of_cmp _ (Host.reduce_andi_all _ _ _ _ _ hs i)

end Cert.Finite

end
-- ==== Proof.lean ====
/-
  The certificate of a 4-bit group-quantized linear layer, y = x · W + b over f32[64, 4096] × [4096, 11008], against
  its plain reference. W is never stored: eight 4-bit nibbles are packed to a 32-bit word down the rows, with one scale
  and one zero point (packed the same way along the columns, stored less one) per group of 128 rows and per column,
      W[k, n] = scale[k/128, n] · (nibble[k, n] − (zero[k/128, n] + 1)).
  The reference unpacks W whole and contracts x against it. The kernel pads the columns to 11264, walks them in eleven
  tiles of 1024, and on each tile adds the products of the eight nibble planes (plane j pairs the columns 8i + j of x
  with nibble j of word i, scaled) and takes off one small product of the 128-wise group sums of x with
  scale · (zero + 1); the first 11008 columns are kept.
  Over the extended reals, with x and the scales real (the precondition), the two are one function: the product
  distributes over nibble − zero (a nibble lies in 0 … 15 and a zero point in 1 … 16, so the words' difference is the
  integers' difference), and the 4096 rows split as 8i + j for the planes and as 128g + r for the correction
  (Algebra.lean). What the reference computes is read off its operations one at a time (RefValue.lean); what the kernel
  body leaves in a tile, entry by entry (Tile.lean); what the region finds in its windows' arrays and what the slice
  after it keeps (HostReads.lean); the tiles assembled into the output array, and the run (Final.lean); that the
  precondition makes x and the scales real (Finite.lean). The three frames are the programs' runs with the results
  dropped; the idealization rewrote no operation, so that conjunct is trivial.
-/
import proofs.«149651_j22058952032259_1_alg».proof.Defs
import proofs.«149651_j22058952032259_1_alg».proof.Proof.Gen.Kernel
import proofs.«149651_j22058952032259_1_alg».proof.Proof.Gen.Kernel.Skeleton
import proofs.«149651_j22058952032259_1_alg».proof.Proof.Gen.Kernel.Launch
import proofs.«149651_j22058952032259_1_alg».proof.Proof.Gen.Kernel.Points
import proofs.«149651_j22058952032259_1_alg».proof.Proof.Gen.Kernel.Frame
import proofs.«149651_j22058952032259_1_alg».proof.Proof.Gen.KernelIdeal
import proofs.«149651_j22058952032259_1_alg».proof.Proof.Gen.KernelIdeal.Skeleton
import proofs.«149651_j22058952032259_1_alg».proof.Proof.Gen.KernelIdeal.Launch
import proofs.«149651_j22058952032259_1_alg».proof.Proof.Gen.KernelIdeal.Points
import proofs.«149651_j22058952032259_1_alg».proof.Proof.Gen.KernelIdeal.Frame
import proofs.«149651_j22058952032259_1_alg».proof.Proof.Gen.ReferenceIdeal
import proofs.«149651_j22058952032259_1_alg».proof.Proof.Gen.ReferenceIdeal.Run
import proofs.«149651_j22058952032259_1_alg».proof.Proof.Gen.ReferenceIdeal.Read
import proofs.«149651_j22058952032259_1_alg».proof.Proof.Gen.Pre_finite_inputs
import proofs.«149651_j22058952032259_1_alg».proof.Proof.RefValue
import proofs.«149651_j22058952032259_1_alg».proof.Proof.Final
import proofs.«149651_j22058952032259_1_alg».proof.Proof.Finite
import Idealize.ShloMosaic.Adequacy
import Idealize.ShloMosaic.Init

noncomputable section

namespace Cert.Proof

open Idealize.ShloMosaic Idealize.ShloMosaic.TcCoe Idealize.SL.Sem
open Cert.KernelIdeal.HostReads

/-- The kernel's program, as printed, runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, x and the scales real, both programs end with the reference form of
    the arguments in their result: the kernel by `result_eq` over its run, the reference by its run read back. -/
theorem algebraic : Cert.algebraic_KernelIdeal_ReferenceIdeal := by
  intro m ρ m' ρ' hpre hagree
  have hfin := fun c => Cert.Finite.real_of_fn _ _ _ _ _ (hpre c)
  refine ⟨fun c => Cert.GroupQuant.ref (N := 11008) (N8 := 1376) rfl (qwArg m c) (qzArg m c) (scArg m c) (bArg m c) (xArg m c), ?_, ?_⟩
  · exact (θ_run Cert.KernelIdeal.defs _ _).mono
      (fun _ h c => ⟨(h c).1.trans (Cert.KernelIdeal.Final.result_eq m c (hfin c).1 (hfin c).2), (h c).2⟩)
      (Cert.KernelIdeal.Final.run_value m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v31_eq, Cert.ReferenceIdeal.RefValue.ref_is,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
